-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  main_v3
-- ==== Kernel.lean ====
abbrev S8x2048x3 : Shape := ⟨3, ![8, 2048, 3]⟩
abbrev S8x2048x2048 : Shape := ⟨3, ![8, 2048, 2048]⟩
abbrev S1x256x3 : Shape := ⟨3, ![1, 256, 3]⟩
abbrev S1x2048x3 : Shape := ⟨3, ![1, 2048, 3]⟩
abbrev S1x256x2048 : Shape := ⟨3, ![1, 256, 2048]⟩
abbrev S256x3 : Shape := ⟨2, ![256, 3]⟩
abbrev S2048x3 : Shape := ⟨2, ![2048, 3]⟩
abbrev S256x1x3 : Shape := ⟨3, ![256, 1, 3]⟩
abbrev S256x2048x3 : Shape := ⟨3, ![256, 2048, 3]⟩
abbrev S256x2048 : Shape := ⟨2, ![256, 2048]⟩

abbrev nBuf : Space → Nat
  | .hbm => 2
  | .vmem => 6
  | .smem => 0
  | _ => 0

abbrev bufTy : (tb : Table) → Fin (tcTables nBuf tb) → BufTy
  | .hbm, ⟨0, _⟩ => ⟨S8x2048x3, .f32⟩
  | .hbm, ⟨1, _⟩ => ⟨S8x2048x2048, .f32⟩
  | .local _ .vmem, ⟨0, _⟩ => ⟨S1x256x3, .f32⟩
  | .local _ .vmem, ⟨1, _⟩ => ⟨S1x256x3, .f32⟩
  | .local _ .vmem, ⟨2, _⟩ => ⟨S1x2048x3, .f32⟩
  | .local _ .vmem, ⟨3, _⟩ => ⟨S1x2048x3, .f32⟩
  | .local _ .vmem, ⟨4, _⟩ => ⟨S1x256x2048, .f32⟩
  | .local _ .vmem, ⟨5, _⟩ => ⟨S1x256x2048, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  shapeCasts_S256x3_S256x1x3 : S256x3.ShapeCasts S256x1x3
  shapeCasts_S2048x3_S1x2048x3 : S2048x3.ShapeCasts S1x2048x3
  broadcasts_S256x1x3_S256x2048x3 : S256x1x3.Broadcasts S256x2048x3
  broadcasts_S1x2048x3_S256x2048x3 : S1x2048x3.Broadcasts S256x2048x3
  reduces_S256x2048x3_S256x2048 : S256x2048x3.Reduces [2] S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S8x2048x3.size a
  hwx0_0 : ∀ i : grid0.Coords, EltTy.bits .f32 = 32 ∨ (Rect.block (s := S8x2048x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S8x2048x3.size a
  hwx0_1 : ∀ i : grid0.Coords, EltTy.bits .f32 = 32 ∨ (Rect.block (s := S8x2048x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)

variable [Facts₀]

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x1x2048x3 : Shape := ⟨4, ![8, 1, 2048, 3]⟩
abbrev S8x2048x1x3 : Shape := ⟨4, ![8, 2048, 1, 3]⟩
abbrev S8x2048x2048x3 : Shape := ⟨4, ![8, 2048, 2048, 3]⟩
abbrev S_ : Shape := ⟨0, ![]⟩
abbrev S8x2048x2048 : Shape := ⟨3, ![8, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x1x2048x3, .f32⟩
  | .hbm, ⟨2, _⟩ => ⟨S8x2048x1x3, .f32⟩
  | .hbm, ⟨3, _⟩ => ⟨S8x2048x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S_, .f32⟩
  | .hbm, ⟨8, _⟩ => ⟨S8x2048x2048, .f32⟩
  | .hbm, ⟨9, _⟩ => ⟨S8x2048x2048, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S8x2048x3_S8x1x2048x3_0_2_3 : S8x2048x3.BroadcastsInDim S8x1x2048x3 (![0, 2, 3] : Fin 3 → Fin S8x1x2048x3.rank)
  bcast_S8x2048x3_S8x2048x1x3_0_1_3 : S8x2048x3.BroadcastsInDim S8x2048x1x3 (![0, 1, 3] : Fin 3 → Fin S8x2048x1x3.rank)
  bcast_S8x1x2048x3_S8x2048x2048x3_0_1_2_3 : S8x1x2048x3.BroadcastsInDim S8x2048x2048x3 (![0, 1, 2, 3] : Fin 4 → Fin S8x2048x2048x3.rank)
  bcast_S8x2048x1x3_S8x2048x2048x3_0_1_2_3 : S8x2048x1x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel

variable [Facts₀]

class Facts : Prop extends Facts₀ where

variable [Facts]
-- ==== Proof.LibFrameShared.lean ====
/-
  The frame run of a one-region pipeline kernel whose INPUT windows may stand on one array.

  A kernel handed the same array through several `in_specs` reads it through several windows at once. Each window's
  fetches need a share of the array, so the array's full share is dealt among the windows on it; what is left to
  say is how (`hsplit`). Everything else is as for a kernel whose arrays are distinct: the kernel has no semaphore
  of its own, carries nothing from point to point outside its staging buffers, and every unscoped buffer that is
  no window's array passes the region by untouched. The invariant between points is the core's scoped buffers that
  are no staging buffer, at some contents (`Pipeline.scopedRest`); the generator register is not part of it, so the
  statement is for a body that draws no random bits.

  The conclusion is the frame post of Lib/Pipeline/Frame.lean: every window's array ends at what the proof data
  compute for it (an input at its entry contents — two windows on one array both say so —, an output at its entry
  contents overwritten by each write-back), every other unscoped buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for windows that may share arrays. `hw`, `hne`, `harr`, `hstage` and `hinj` are the layout facts
    (decided on the printed windows); `hbody` is the body obligation at every point; `hmain` is @main up to the
    region with the buffers' contents `V` there; `hsplit` deals the buffers behind the arrays, each whole at `V`,
    into the proof data's arrays at their shares; `hΦ` says the invariant is the scoped rest at every point. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := Rounds.initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KernelFrame.lean ====
/-
  The frame run of the pairwise-distance kernel, at any float instance.

  The kernel is one pipelined region on an 8 x 8 grid. At the point (b, i) it is handed two blocks of the SAME
  argument array c : [8, 2048, 3] — rows 256 i … 256 i + 255 of batch b (the queries) and all 2048 rows of batch b
  (the keys) — and stores one block of the result, rows 256 i … 256 i + 255 of batch b of [8, 2048, 2048]. Two input
  windows on one array: the array's full share is halved, one half to each window, which is all a fetch needs.
  The body reads both input blocks whole, computes, and overwrites the output block whole (it also loads the
  output block first and does not use what it loaded); so what the output's staging buffer holds after the body is
  a function of the two input blocks alone (`outBlk`), the input buffers are left as found, and nothing is carried
  from point to point. The query window is fetched at every point, the key window only when b changes; either way
  the body finds each at its block of c.

  The run's post names the result array as the library's `Dat.arrAt` of these proof data and says the argument
  array ends as launched.
-/
import proofs.«171638_j84335977825047_1_alg».proof.Proof.Gen.Kernel.Launch
import proofs.«171638_j84335977825047_1_alg».proof.Proof.Gen.Kernel.Skeleton
import proofs.«171638_j84335977825047_1_alg».proof.Proof.Gen.Kernel.Points
import proofs.«171638_j84335977825047_1_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The core's buffers when the region is entered: as launched, the region being all of @main. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds its block at every point (it is fetched at every point). -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's buffer holds its block at every point: where it is not fetched the batch has not changed, the
    body left the block in place, and the block is the same. -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The body's three accesses: each the whole of its buffer. -/
abbrev rq : Rect S1x256x3 := Rect.unit (s := S1x256x3) ![0, 0, 0] S1x256x3.size inb_S1x256x3_S1x256x3_0_0_0
abbrev rk : Rect S1x2048x3 := Rect.unit (s := S1x2048x3) ![0, 0, 0] S1x2048x3.size inb_S1x2048x3_S1x2048x3_0_0_0
abbrev ro : Rect S1x256x2048 := Rect.unit (s := S1x256x2048) ![0, 0, 0] S1x256x2048.size inb_S1x256x2048_S1x256x2048_0_0_0

/-- What the output's buffer holds after the body, from the two input blocks: its one store, of the payload of the
    two loads. -/
def outBlk (xq : Vec F S1x256x3 .f32) (xk : Vec F S1x2048x3 .f32) : Vec F S1x256x2048 .f32 :=
  View.canon [⟨ro, k0_pay1 (View.ld xq rq) (View.ld xk rk)⟩]

/-- The one store covers the buffer. -/
theorem cover_o (p0 : Vec F S1x256x2048 .f32) (y : S1x256x2048.Idx) :
    ∃ pc ∈ ([⟨ro, p0⟩] : List (View.Piece (Elt F) S1x256x2048 .f32)), y ∈ pc.1.set :=
  View.cover_of_tiled [⟨ro, p0⟩] S1x256x2048.size (by rfl) y

set_option maxHeartbeats 1000000 in
/-- The body on whole staging memrefs, the inputs' at contents `xq`, `xk` and the output's at anything, runs to the
    continuation with the inputs' as they were and the output's at `outBlk xq xk`. -/
theorem sound_kernel (c : Dev nD) (E : Set ℕ) (i : grid0.Coords)
    (arg2 : Memref sig .tc .vmem S1x256x3 .f32) (harg2 : arg2.IsWhole)
    (arg3 : Memref sig .tc .vmem S1x2048x3 .f32) (harg3 : arg3.IsWhole)
    (arg4 : Memref sig .tc .vmem S1x256x2048 .f32) (harg4 : arg4.IsWhole)
    (xq : Vec F S1x256x3 .f32) (xk : Vec F S1x2048x3 .f32) (K : PUnit → sProp 𝕄) :
    iprop(owns (c : Thread nD τ) arg2 fullShare xq ∗ owns (c : Thread nD τ) arg3 fullShare xk ∗ (∃ d, owns (c : Thread nD τ) arg4 fullShare d)
        ∗ (iprop(owns (c : Thread nD τ) arg2 fullShare xq ∗ owns (c : Thread nD τ) arg3 fullShare xk ∗ owns (c : Thread nD τ) arg4 fullShare (outBlk xq xk)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_o _)

/-! ## The proof data -/

/-- The proof data on core `c`: the arrays as launched; after the body at point `t` each input's buffer at its block
    and the output's at `outBlk` of the two; between points the core's scoped buffers that are no staging buffer;
    nothing owed; the argument array's full share halved between the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = outBlk (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).Φ t.succ = (dats m 0 c).Φ t.castSucc from rfl,
    show (dats m 0 c).owesAt () t.succ = (dats m 0 c).owesAt () t.castSucc from rfl,
    after_q, after_k, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The argument array dealt to its two windows -/

/-- The buffers behind the windows' arrays: the argument and the result. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_v0) ↦{fullShare} V' main_v0)) :=
  Idealize.SL.BI.bigSep_eq_bigSepL_of_eq [main_arg0, main_v0] (by decide) (by decide) _

/-- The share each window holds its array at: the argument's two halves for the two windows that read it, the whole
    of the result for the window that writes it. -/
theorem share_q (c : Dev nD) : (dats m 0 c).share 0 = fullShare.left := by unfold Dat.share; rfl
theorem share_k (c : Dev nD) : (dats m 0 c).share 1 = fullShare.right := by unfold Dat.share; rfl
theorem share_o (c : Dev nD) : (dats m 0 c).share 2 = fullShare := by unfold Dat.share; rfl

/-- The proof data's arrays, window by window: each array is a whole buffer. -/
theorem arrays_eq (c : Dev nD) (Fw : (w : Fin cfg0.W) → Buf (Elt F) ((cfg0.win w).arr.view.loc (c : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v0) ↦{fullShare} Fw 2)) := by
  unfold Dat.arrays
  rw [bigSep_W0, (arr_whole0 0).set_eq_univ, (arr_whole0 2).set_eq_univ, share_q, share_k, share_o]

/-- The argument's full share is its two halves, one for each window on it; the result goes whole to its window. -/
theorem hsplit (c : Dev nD) :
    (Pipeline.arrBufs spec0 c (V m c) : sProp 𝕄) ⊢ (dats m 0 c).arrays ((dats m 0 c).arrAt · 0) := by
  rw [arrBufs_eq, arrays_eq]
  iintro ⟨Ha, Hv⟩
  ihave Hlr := (pointsTo_share (PosShare.mem_left_op_right fullShare)).1 $$ Ha
  icases Hlr with ⟨Hl, Hr⟩
  isplitl [Hl]; · iexact Hl
  isplitl [Hr]; · iexact Hr
  iexact Hv

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- Every weakly fair execution of @main terminates without a fault and leaves the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.Kernel.Dist

end
-- ==== Proof.KernelIdealFrame.lean ====
/-
  The frame run of the pairwise-distance kernel, at any float instance.

  The kernel is one pipelined region on an 8 x 8 grid. At the point (b, i) it is handed two blocks of the SAME
  argument array c : [8, 2048, 3] — rows 256 i … 256 i + 255 of batch b (the queries) and all 2048 rows of batch b
  (the keys) — and stores one block of the result, rows 256 i … 256 i + 255 of batch b of [8, 2048, 2048]. Two input
  windows on one array: the array's full share is halved, one half to each window, which is all a fetch needs.
  The body reads both input blocks whole, computes, and overwrites the output block whole (it also loads the
  output block first and does not use what it loaded); so what the output's staging buffer holds after the body is
  a function of the two input blocks alone (`outBlk`), the input buffers are left as found, and nothing is carried
  from point to point. The query window is fetched at every point, the key window only when b changes; either way
  the body finds each at its block of c.

  The run's post names the result array as the library's `Dat.arrAt` of these proof data and says the argument
  array ends as launched.
-/
import proofs.«171638_j84335977825047_1_alg».proof.Proof.Gen.KernelIdeal.Launch
import proofs.«171638_j84335977825047_1_alg».proof.Proof.Gen.KernelIdeal.Skeleton
import proofs.«171638_j84335977825047_1_alg».proof.Proof.Gen.KernelIdeal.Points
import proofs.«171638_j84335977825047_1_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The core's buffers when the region is entered: as launched, the region being all of @main. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds its block at every point (it is fetched at every point). -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's buffer holds its block at every point: where it is not fetched the batch has not changed, the
    body left the block in place, and the block is the same. -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The body's three accesses: each the whole of its buffer. -/
abbrev rq : Rect S1x256x3 := Rect.unit (s := S1x256x3) ![0, 0, 0] S1x256x3.size inb_S1x256x3_S1x256x3_0_0_0
abbrev rk : Rect S1x2048x3 := Rect.unit (s := S1x2048x3) ![0, 0, 0] S1x2048x3.size inb_S1x2048x3_S1x2048x3_0_0_0
abbrev ro : Rect S1x256x2048 := Rect.unit (s := S1x256x2048) ![0, 0, 0] S1x256x2048.size inb_S1x256x2048_S1x256x2048_0_0_0

/-- What the output's buffer holds after the body, from the two input blocks: its one store, of the payload of the
    two loads. -/
def outBlk (xq : Vec F S1x256x3 .f32) (xk : Vec F S1x2048x3 .f32) : Vec F S1x256x2048 .f32 :=
  View.canon [⟨ro, k0_pay1 (View.ld xq rq) (View.ld xk rk)⟩]

/-- The one store covers the buffer. -/
theorem cover_o (p0 : Vec F S1x256x2048 .f32) (y : S1x256x2048.Idx) :
    ∃ pc ∈ ([⟨ro, p0⟩] : List (View.Piece (Elt F) S1x256x2048 .f32)), y ∈ pc.1.set :=
  View.cover_of_tiled [⟨ro, p0⟩] S1x256x2048.size (by rfl) y

set_option maxHeartbeats 1000000 in
/-- The body on whole staging memrefs, the inputs' at contents `xq`, `xk` and the output's at anything, runs to the
    continuation with the inputs' as they were and the output's at `outBlk xq xk`. -/
theorem sound_kernel (c : Dev nD) (E : Set ℕ) (i : grid0.Coords)
    (arg2 : Memref sig .tc .vmem S1x256x3 .f32) (harg2 : arg2.IsWhole)
    (arg3 : Memref sig .tc .vmem S1x2048x3 .f32) (harg3 : arg3.IsWhole)
    (arg4 : Memref sig .tc .vmem S1x256x2048 .f32) (harg4 : arg4.IsWhole)
    (xq : Vec F S1x256x3 .f32) (xk : Vec F S1x2048x3 .f32) (K : PUnit → sProp 𝕄) :
    iprop(owns (c : Thread nD τ) arg2 fullShare xq ∗ owns (c : Thread nD τ) arg3 fullShare xk ∗ (∃ d, owns (c : Thread nD τ) arg4 fullShare d)
        ∗ (iprop(owns (c : Thread nD τ) arg2 fullShare xq ∗ owns (c : Thread nD τ) arg3 fullShare xk ∗ owns (c : Thread nD τ) arg4 fullShare (outBlk xq xk)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_o _)

/-! ## The proof data -/

/-- The proof data on core `c`: the arrays as launched; after the body at point `t` each input's buffer at its block
    and the output's at `outBlk` of the two; between points the core's scoped buffers that are no staging buffer;
    nothing owed; the argument array's full share halved between the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = outBlk (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).Φ t.succ = (dats m 0 c).Φ t.castSucc from rfl,
    show (dats m 0 c).owesAt () t.succ = (dats m 0 c).owesAt () t.castSucc from rfl,
    after_q, after_k, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The argument array dealt to its two windows -/

/-- The buffers behind the windows' arrays: the argument and the result. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_v0) ↦{fullShare} V' main_v0)) :=
  Idealize.SL.BI.bigSep_eq_bigSepL_of_eq [main_arg0, main_v0] (by decide) (by decide) _

/-- The share each window holds its array at: the argument's two halves for the two windows that read it, the whole
    of the result for the window that writes it. -/
theorem share_q (c : Dev nD) : (dats m 0 c).share 0 = fullShare.left := by unfold Dat.share; rfl
theorem share_k (c : Dev nD) : (dats m 0 c).share 1 = fullShare.right := by unfold Dat.share; rfl
theorem share_o (c : Dev nD) : (dats m 0 c).share 2 = fullShare := by unfold Dat.share; rfl

/-- The proof data's arrays, window by window: each array is a whole buffer. -/
theorem arrays_eq (c : Dev nD) (Fw : (w : Fin cfg0.W) → Buf (Elt F) ((cfg0.win w).arr.view.loc (c : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v0) ↦{fullShare} Fw 2)) := by
  unfold Dat.arrays
  rw [bigSep_W0, (arr_whole0 0).set_eq_univ, (arr_whole0 2).set_eq_univ, share_q, share_k, share_o]

/-- The argument's full share is its two halves, one for each window on it; the result goes whole to its window. -/
theorem hsplit (c : Dev nD) :
    (Pipeline.arrBufs spec0 c (V m c) : sProp 𝕄) ⊢ (dats m 0 c).arrays ((dats m 0 c).arrAt · 0) := by
  rw [arrBufs_eq, arrays_eq]
  iintro ⟨Ha, Hv⟩
  ihave Hlr := (pointsTo_share (PosShare.mem_left_op_right fullShare)).1 $$ Ha
  icases Hlr with ⟨Hl, Hr⟩
  isplitl [Hl]; · iexact Hl
  isplitl [Hr]; · iexact Hr
  iexact Hv

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- Every weakly fair execution of @main terminates without a fault and leaves the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.KernelIdeal.Dist

end
-- ==== Proof.PayloadAt.lean ====
/-
  The kernel body's stored value, read at an index, at the ideal instance.

  From the query block xq : [1, 256, 3] and the key block xk : [1, 2048, 3] the body forms, at (r, q, d) of
  [256, 2048, 3], the difference xq(0, r, d) - xk(0, q, d) (each block re-laid and repeated along the axis it lacks),
  squares it, sums over d from zero, takes the square root, and re-lays the [256, 2048] result as [1, 256, 2048].
  So the stored value at (0, r, q) is the root of the sum over d of (xq(0, r, d) - xk(0, q, d)) squared.
-/
import proofs.«171638_j84335977825047_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

variable {α : Type}

/-- Re-laying [a, b] as [a, 1, b] keeps the entry at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- Repeating a [256, 1, 3] vector along its unit axis: the entry at (r, q, d) is the operand's at (r, 0, d). -/
theorem bcast_rows (x : S256x1x3.Idx → α) (r : Fin 256) (q : Fin 2048) (d : Fin 3) :
    broadcastTo S256x2048x3 x broadcasts_S256x1x3_S256x2048x3 (ix3 r q d) = x (ix3 r (0 : Fin 1) d) :=
  broadcastTo_apply x _ _ _ (fun a => by
    match a with
    | ⟨0, _⟩ => show r.val = if (256 : Nat) = 1 then 0 else r.val; rw [if_neg (by decide)]
    | ⟨1, _⟩ => show 0 = if (1 : Nat) = 1 then 0 else q.val; rw [if_pos rfl]
    | ⟨2, _⟩ => show d.val = if (3 : Nat) = 1 then 0 else d.val; rw [if_neg (by decide)])

/-- Repeating a [1, 2048, 3] vector along its unit axis: the entry at (r, q, d) is the operand's at (0, q, d). -/
theorem bcast_cols (x : S1x2048x3.Idx → α) (r : Fin 256) (q : Fin 2048) (d : Fin 3) :
    broadcastTo S256x2048x3 x broadcasts_S1x2048x3_S256x2048x3 (ix3 r q d) = x (ix3 (0 : Fin 1) q d) :=
  broadcastTo_apply x _ _ _ (fun a => by
    match a with
    | ⟨0, _⟩ => show 0 = if (1 : Nat) = 1 then 0 else r.val; rw [if_pos rfl]
    | ⟨1, _⟩ => show q.val = if (2048 : Nat) = 1 then 0 else q.val; rw [if_neg (by decide)]
    | ⟨2, _⟩ => show d.val = if (3 : Nat) = 1 then 0 else d.val; rw [if_neg (by decide)])

/-- The index over (r, q) with coordinate d on the summed axis is (r, q, d). -/
theorem lift_eq (r : Fin 256) (q : Fin 2048) (d : Fin 3) :
    reduces_S256x2048x3_S256x2048.lift (ix2 r q) d = ix3 r q d :=
  funext fun c => Fin.ext (by match c with | ⟨0, _⟩ => rfl | ⟨1, _⟩ => rfl | ⟨2, _⟩ => rfl)

/-- The sum over the last axis of a [256, 2048, 3] vector, from zero, at (r, q). -/
theorem lane_sum (v : FVec Ideal S256x2048x3 .f32) (hφ : FKind.Formats .f32)
    (hacc : (0x00000000#32 : BitVec 32) = FKind.add.neutral .f32 hφ) (r : Fin 256) (q : Fin 2048) :
    multiReduction .add [2] S256x2048 v 0x00000000#32 reduces_S256x2048x3_S256x2048 hφ hacc (ix2 r q)
      = ∑ d : Fin 3, v (ix3 r q d) :=
  (Ideal.multiReduction_add_single v 0x00000000#32 reduces_S256x2048x3_S256x2048 hφ hacc (ix2 r q)).trans
    (Finset.sum_congr rfl fun d _ => congrArg v (lift_eq r q d))

/-- The difference of the two repeated blocks at (r, q, d). -/
theorem diff_apply (xq : FVec Ideal S1x256x3 .f32) (xk : FVec Ideal S1x2048x3 .f32) (r : Fin 256) (q : Fin 2048) (d : Fin 3) :
    subf
        (broadcastTo S256x2048x3 (shapeCast S256x1x3 (shapeCast S256x3 xq shapeCasts_S1x256x3_S256x3) shapeCasts_S256x3_S256x1x3) broadcasts_S256x1x3_S256x2048x3)
        (broadcastTo S256x2048x3 (shapeCast S1x2048x3 (shapeCast S2048x3 xk shapeCasts_S1x2048x3_S2048x3) shapeCasts_S2048x3_S1x2048x3) broadcasts_S1x2048x3_S256x2048x3)
        (ix3 r q d)
      = xq (ix3 (0 : Fin 1) r d) - xk (ix3 (0 : Fin 1) q d) := by
  rw [subf_apply, bcast_rows, bcast_cols, shapeCast_ab_a1b_apply, shapeCast_ab_1ab_apply, shapeCast_1ab_ab_apply, shapeCast_1ab_ab_apply]

/-- THE STORED VALUE at (u, r, q). -/
theorem pay_apply (xq : FVec Ideal S1x256x3 .f32) (xk : FVec Ideal S1x2048x3 .f32) (u : Fin 1) (r : Fin 256) (q : Fin 2048) :
    k0_pay1 (F := Ideal) xq xk (ix3 u r q)
      = Ideal.sqrt (∑ d : Fin 3, (xq (ix3 (0 : Fin 1) r d) - xk (ix3 (0 : Fin 1) q d)) * (xq (ix3 (0 : Fin 1) r d) - xk (ix3 (0 : Fin 1) q d))) := by
  unfold k0_pay1
  dsimp only
  refine (shapeCast_ab_1ab_apply _ _ u r q).trans ?_
  show Ideal.sqrt _ = _
  refine congrArg Ideal.sqrt ?_
  refine (lane_sum _ _ _ r q).trans ?_
  refine Finset.sum_congr rfl fun d _ => ?_
  rw [mulf_apply, diff_apply]

end Cert.KernelIdeal.Payload

end
-- ==== Proof.DistSpec.lean ====
/-
  Pairwise Euclidean distance, as one function of the coordinates, on the extended reals.

  For coordinates c : [8, 2048, 3] the result at (b, p, q) is the square root of the sum over the three axes d of
  the squared difference of c(b, q, d) and c(b, p, d). The difference may be taken either way round: for REAL
  entries (a - b)(a - b) = (b - a)(b - a). On the extended reals this needs the entries finite (top minus top is
  bottom whichever way round, but its negation is not), which is what the precondition gives.
-/
import Idealize.ShloMosaic.PureOps.Ideal
import Idealize.ShloMosaic.PureOps.Ideal.Laws
import Idealize.ShloMosaic.Lib.ValueIdx

noncomputable section

namespace Cert.DistSpec

open Idealize.ShloMosaic Idealize.ShloMosaic.ValueIdx

/-- The coordinates' shape and the result's. -/
abbrev SC : Shape := ⟨3, ![8, 2048, 3]⟩
abbrev SO : Shape := ⟨3, ![8, 2048, 2048]⟩

/-- The distance from row `p` to row `q` of batch `b`, the difference taken as row `q` minus row `p`. -/
def distAt (c : SC.Idx → EReal) (b : Fin 8) (p q : Fin 2048) : EReal :=
  Ideal.sqrt (∑ d : Fin 3, (c (ix3 b q d) - c (ix3 b p d)) * (c (ix3 b q d) - c (ix3 b p d)))

/-- The same with the difference taken as row `p` minus row `q`. -/
def distAt' (c : SC.Idx → EReal) (b : Fin 8) (p q : Fin 2048) : EReal :=
  Ideal.sqrt (∑ d : Fin 3, (c (ix3 b p d) - c (ix3 b q d)) * (c (ix3 b p d) - c (ix3 b q d)))

/-- The whole result. -/
def dist (c : SC.Idx → EReal) : SO.Idx → EReal := fun y => distAt c (y 0) (y 1) (y 2)

/-- A squared difference of two reals does not depend on the order of the two. -/
theorem sq_sub_comm {a b : EReal} (ha : ∃ x : ℝ, a = (x : EReal)) (hb : ∃ y : ℝ, b = (y : EReal)) :
    (a - b) * (a - b) = (b - a) * (b - a) := by
  obtain ⟨x, rfl⟩ := ha
  obtain ⟨y, rfl⟩ := hb
  rw [← EReal.coe_sub, ← EReal.coe_sub, ← EReal.coe_mul, ← EReal.coe_mul]
  exact congrArg _ (by ring)

/-- So for finite coordinates the two readings of the distance agree. -/
theorem distAt'_eq (c : SC.Idx → EReal) (hfin : ∀ i, ∃ x : ℝ, c i = (x : EReal)) (b : Fin 8) (p q : Fin 2048) :
    distAt' c b p q = distAt c b p q := by
  unfold distAt' distAt
  exact congrArg Ideal.sqrt (Finset.sum_congr rfl fun d _ => sq_sub_comm (hfin _) (hfin _))

/-- The whole result, the difference taken the other way round. -/
def dist' (c : SC.Idx → EReal) : SO.Idx → EReal := fun y => distAt' c (y 0) (y 1) (y 2)

theorem dist'_eq (c : SC.Idx → EReal) (hfin : ∀ i, ∃ x : ℝ, c i = (x : EReal)) : dist' c = dist c :=
  funext fun y => distAt'_eq c hfin (y 0) (y 1) (y 2)

end Cert.DistSpec

end
-- ==== Proof.KernelValue.lean ====
/-
  The result array after the idealized kernel's run, as one function of the coordinates.

  At the grid point (b, i) the kernel writes back rows 256 i … 256 i + 255 of batch b of the result. The block it
  writes is the body's stored value of the two input blocks, and those are rows 256 i … 256 i + 255 of batch b of the
  coordinates (the queries) and all rows of batch b (the keys). So the entry written at (b, 256 i + r, q) is the
  distance between rows 256 i + r and q of batch b, the difference taken as the query row minus the key row: the
  block is the restriction of ONE whole-array function (`dist'`). The 64 blocks tile the result, so the result ends
  holding that function.
-/
import proofs.«171638_j84335977825047_1_alg».proof.Proof.KernelIdealFrame
import proofs.«171638_j84335977825047_1_alg».proof.Proof.PayloadAt
import proofs.«171638_j84335977825047_1_alg».proof.Proof.DistSpec
import Idealize.ShloMosaic.Lib.Pipeline.Value

set_option maxRecDepth 16384

noncomputable section

namespace Cert.KernelIdeal.DistValue

open Cert.KernelIdeal Cert.KernelIdeal.Gen Cert.KernelIdeal.Dist Cert.KernelIdeal.Payload Cert.DistSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The three index maps over the grid: the query window and the result window move together over (batch, row
    block); the key window follows the batch only; the block indices stay in range. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 7 ∧ win0_2.index t (1 : Fin 3) ≤ 7 ∧ win0_2.index t (2 : Fin 3) = 0 :=
  (by decide +kernel : ∀ t : Fin grid0.N, _)

/-- Every (batch, row block) is some point's. -/
theorem idx_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- WHAT POINT `t` WRITES BACK is block `t` of `dist'` of the coordinates. -/
theorem flushed_eq (c : Dev nD) (t : Fin cfg0.N) :
    (dats m 0 c).flushed 2 t = ((cfg0.win 2).blk t).view.read (Elt Ideal) (dist' (V m c main_arg0)) := by
  show (cfg0.win 2).cut (grid0.coords t) ((dats m 0 c).after 2 t) = _
  rw [after_o]
  unfold outBlk
  rw [View.canon_unit_zero hz]
  simp only [View.ld_unit_zero (S := S1x256x3) hz, View.ld_unit_zero (S := S1x2048x3) hz]
  obtain ⟨e0, e1, e2, e3, e4, e5, e6, e7, e8⟩ := idx_facts t
  refine funext fun (j : S1x256x2048.Idx) => ?_
  obtain ⟨u, r, q, rfl⟩ : ∃ (u : Fin 1) (r : Fin 256) (q : Fin 2048), j = ix3 u r q := ⟨j 0, j 1, j 2, eq_ix3 j⟩
  have hu : u.val = 0 := by omega
  show k0_pay1 (F := Ideal) (iblk m c 0 t) (iblk m c 1 t) (ix3 u r q)
    = distAt' (V m c main_arg0) (((cfg0.win 2).blk t).view.emb (ix3 u r q) 0) (((cfg0.win 2).blk t).view.emb (ix3 u r q) 1)
        (((cfg0.win 2).blk t).view.emb (ix3 u r q) 2)
  refine (pay_apply _ _ u r q).trans ?_
  unfold distAt'
  refine congrArg Ideal.sqrt (Finset.sum_congr rfl fun d _ => ?_)
  have hq : iblk m c 0 t (ix3 (0 : Fin 1) r d)
      = V m c main_arg0 (ix3 (((cfg0.win 2).blk t).view.emb (ix3 u r q) 0) (((cfg0.win 2).blk t).view.emb (ix3 u r q) 1) d) := by
    show V m c main_arg0 (((cfg0.win 0).blk t).view.emb (ix3 (0 : Fin 1) r d)) = _
    refine congrArg _ (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 256 + 1 * r.val = win0_2.index t (1 : Fin 3) * 256 + 1 * r.val; omega
    | ⟨2, _⟩ => show win0_0.index t (2 : Fin 3) * 3 + 1 * d.val = d.val; omega
  have hk : iblk m c 1 t (ix3 (0 : Fin 1) q d)
      = V m c main_arg0 (ix3 (((cfg0.win 2).blk t).view.emb (ix3 u r q) 0) (((cfg0.win 2).blk t).view.emb (ix3 u r q) 2) d) := by
    show V m c main_arg0 (((cfg0.win 1).blk t).view.emb (ix3 (0 : Fin 1) q d)) = _
    refine congrArg _ (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 2048 + 1 * q.val = win0_2.index t (2 : Fin 3) * 2048 + 1 * q.val; omega
    | ⟨2, _⟩ => show win0_1.index t (2 : Fin 3) * 3 + 1 * d.val = d.val; omega
  rw [hq, hk]

/-- An index of the result is in point `t`'s block iff each coordinate is in the block's range on its axis. -/
theorem mem_blk (t : Fin cfg0.N) (i : S8x2048x2048.Idx) :
    i ∈ ((cfg0.win 2).blk t).view.set ↔ ∀ a : Fin 3, win0_2.index t a * S1x256x2048.size a ≤ (i a).val
      ∧ (i a).val < win0_2.index t a * S1x256x2048.size a + S1x256x2048.size a := by
  show i ∈ ((View.whole main_v0).slice (win0_2.rect t)).set ↔ _
  rw [View.set_slice_whole, Rect.mem_set_unit]
  exact Iff.rfl

/-- Every index of the result lies in some point's block: the blocks tile it. -/
theorem cover (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- THE RESULT after the run: `dist'` of the coordinates. -/
theorem final (c : Dev nD) : (dats m 0 c).arrAt 2 cfg0.N = dist' (V m c main_arg0) :=
  (dats m 0 c).arrAt_eq_of_cover 2 (dist' (V m c main_arg0)) (fun t _ => flushed_eq m c t) cover

/-- The run, read: the result at `dist'` of the coordinates as launched, the coordinates unchanged. -/
theorem run : θ_run defs (onTc (τ := τ) (main (F := Ideal))) ⟨m, fun _ => 0, ρ⟩ fun r => ∀ c : Dev nD,
      r.2.mem ((c.tc : Thread nD τ).loc main_v0) = dist' (m ((c.tc : Thread nD τ).loc main_arg0))
      ∧ r.2.mem ((c.tc : Thread nD τ).loc main_arg0) = m ((c.tc : Thread nD τ).loc main_arg0) :=
  (θ_run defs _ _).mono (fun r h c => ⟨((h c).1 2).trans (final m c),
      ((h c).1 0).trans (((dats m 0 c).arrAt_in 0 rfl _).trans (A_eq m c 0))⟩)
    (run_main m ρ)

end Cert.KernelIdeal.DistValue

end
-- ==== Proof.RefValue.lean ====
/-
  The reference's result at the ideal instance is the pairwise distance of its argument.

  The reference lays the coordinates out twice over [8, 2048, 2048, 3] — once constant along axis 1 (entry (b, p, q, d)
  is c(b, q, d)), once constant along axis 2 (entry (b, p, q, d) is c(b, p, d)) —, subtracts the second from the first,
  squares, sums over d from zero, and takes the square root: at (b, p, q) the root of the sum over d of
  (c(b, q, d) - c(b, p, d)) squared.
-/
import proofs.«171638_j84335977825047_1_alg».proof.Proof.Gen.ReferenceIdeal.Run
import proofs.«171638_j84335977825047_1_alg».proof.Proof.Gen.ReferenceIdeal.Read
import proofs.«171638_j84335977825047_1_alg».proof.Proof.DistSpec

noncomputable section

namespace Cert.ReferenceIdeal.RefValue

open Cert.ReferenceIdeal Cert.ReferenceIdeal.Gen Cert.ReferenceIdeal.Read
open Idealize.ShloMosaic Idealize.ShloMosaic.ValueIdx Cert.DistSpec

/-- Through the two broadcasts, entry (b, p, q, d) of the first operand of the subtraction is c(b, q, d); -/
theorem idx_minuend (y : S8x2048x2048.Idx) (k : Fin 3) :
    idx_main_v0 (idx_main_v2 (idx_main_v6 y k)) = ix3 (y 0) (y 2) k :=
  funext fun a => Fin.ext (by match a with | ⟨0, _⟩ => rfl | ⟨1, _⟩ => rfl | ⟨2, _⟩ => rfl)

/-- and of the second, c(b, p, d). -/
theorem idx_subtrahend (y : S8x2048x2048.Idx) (k : Fin 3) :
    idx_main_v1 (idx_main_v3 (idx_main_v6 y k)) = ix3 (y 0) (y 1) k :=
  funext fun a => Fin.ext (by match a with | ⟨0, _⟩ => rfl | ⟨1, _⟩ => rfl | ⟨2, _⟩ => rfl)

/-- The reference's last stage is `dist` of the argument. -/
theorem ref_eq_dist (x0 : (⟨S8x2048x3, .f32⟩ : BufTy).Contents (Elt Ideal)) :
    val_main_v7 (F := Ideal) x0 = dist x0 := by
  funext y
  rw [val_main_v7_apply, val_main_v6_apply]
  simp only [val_main_v5_apply, val_main_v4_apply, val_main_v2_apply, val_main_v3_apply, val_main_v0_apply,
    val_main_v1_apply, val_main_cst_apply, idx_minuend, idx_subtrahend,
    Ideal.hostUnary_sqrt_def, Ideal.ofBits_def, Ideal.ofBits_zero_f32, Ideal.mulf_def, Ideal.subf_def, zero_add]
  rfl

end Cert.ReferenceIdeal.RefValue

end
-- ==== Proof.Finite.lean ====
/-
  The precondition says every coordinate is a real number.

  The printed predicate is the conjunction, over all entries x of the argument, of |x| < +infinity, where |x| is
  max x (-x) on the extended reals. An extended real whose absolute value is below the top element is neither
  infinity, so it is a real.
-/
import proofs.«171638_j84335977825047_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- An extended real with max a (-a) below the top is a real. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- Where the predicate is all ones, every entry of the argument is a real. -/
theorem finite_of_pre (x : FVec Ideal S8x2048x3 .f32) (h : fn (F := Ideal) x = fun _ => 1#1) (i : S8x2048x3.Idx) :
    ∃ r : ℝ, x i = (r : EReal) := by
  have h0 := congrFun h ValueIdx.ix0
  dsimp only [fn] at h0
  have hi := Host.reduce_andi_all _ _ _ _ _ h0 i
  have hc : Ideal.cmp .olt (max (x i) (-(x i))) (Ideal.ofBits .f32 0x7F800000#32) = 1#1 := hi
  have htop : Ideal.ofBits .f32 0x7F800000#32 = ⊤ := by simp [Ideal.ofBits, Ideal.ieee]
  rw [htop] at hc
  simp only [Ideal.cmp] at hc
  refine real_of_abs_lt_top (x i) ?_
  by_contra hn
  rw [decide_eq_false hn] at hc
  exact absurd hc (by decide)

end Cert.Pre_finite_inputs.Finite

end
-- ==== Proof.lean ====
/-
  Pairwise Euclidean distance over coordinates c : [8, 2048, 3]: a pipelined kernel against its plain reference.

  Both programs compute, at (b, p, q), the square root of the sum over the three axes d of the squared difference of
  rows p and q of batch b. The kernel takes the difference as row p minus row q, the reference as row q minus row p.
  For real entries the two squares are equal, (x - y)(x - y) = (y - x)(y - x); on the extended reals that fails at
  an infinite entry, and the precondition — every entry finite — is what makes the two results equal.

  The kernel reads the coordinates through two windows at once (a block of query rows, and all key rows of the
  batch), so its frame deals the argument's full share in two halves, one to each window (KernelIdealFrame,
  KernelFrame, over LibFrameShared). Its result array is the whole-array function `dist'` because each grid point
  writes the matching block of it and the blocks tile the array (KernelValue, over PayloadAt). The reference's
  result is `dist`, read off its run one operation at a time (RefValue). Finite says the precondition makes every
  entry a real, and DistSpec that `dist'` and `dist` then agree. The ideal pass rewrote nothing, so there is nothing
  for `preserves` to state.
-/
import proofs.«171638_j84335977825047_1_alg».proof.Defs
import proofs.«171638_j84335977825047_1_alg».proof.Proof.Gen.Kernel
import proofs.«171638_j84335977825047_1_alg».proof.Proof.Gen.KernelIdeal
import proofs.«171638_j84335977825047_1_alg».proof.Proof.Gen.ReferenceIdeal
import proofs.«171638_j84335977825047_1_alg».proof.Proof.Gen.Pre_finite_inputs
import proofs.«171638_j84335977825047_1_alg».proof.Proof.KernelFrame
import proofs.«171638_j84335977825047_1_alg».proof.Proof.KernelIdealFrame
import proofs.«171638_j84335977825047_1_alg».proof.Proof.KernelValue
import proofs.«171638_j84335977825047_1_alg».proof.Proof.RefValue
import proofs.«171638_j84335977825047_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves the coordinates as launched. -/
theorem frame_k : Cert.frame_Kernel := fun m ρ _ => Cert.Kernel.Dist.frame m ρ

/-- So does the idealized kernel. -/
theorem frame_ki : Cert.frame_KernelIdeal := fun m ρ _ => Cert.KernelIdeal.Dist.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the coordinates, both runs end with the result at `dist` of them: the kernel's at
    `dist'`, which is `dist` for finite coordinates; the reference's at `dist` of its own argument, which is the
    kernel's. -/
theorem algebraic : Cert.algebraic_KernelIdeal_ReferenceIdeal := by
  intro m ρ m' ρ' hpre hagree
  refine ⟨fun c => Cert.DistSpec.dist (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.DistValue.run m ρ)
    exact Cert.DistSpec.dist'_eq _ (Cert.Pre_finite_inputs.Finite.finite_of_pre _ (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v7_eq, Cert.ReferenceIdeal.RefValue.ref_eq_dist, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
